-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S32x1024x1024 : Shape := ⟨3, ![32, 1024, 1024]⟩
abbrev S512x512 : Shape := ⟨2, ![512, 512]⟩
abbrev S512 : Shape := ⟨1, ![512]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S32x1024x512 .f32) (main_arg1 : FVec F S32x1024x1024 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32x1024x512 : Shape := ⟨3, ![32, 1024, 512]⟩
abbrev S32x1024x1024 : Shape := ⟨3, ![32, 1024, 1024]⟩
abbrev S512x512 : Shape := ⟨2, ![512, 512]⟩
abbrev S512 : Shape := ⟨1, ![512]⟩
abbrev S1x512 : Shape := ⟨2, ![1, 512]⟩
abbrev S1x1024x512 : Shape := ⟨3, ![1, 1024, 512]⟩
abbrev S1x1024x1024 : Shape := ⟨3, ![1, 1024, 1024]⟩
abbrev S1024x512 : Shape := ⟨2, ![1024, 512]⟩
abbrev S1024x1024 : Shape := ⟨2, ![1024, 1024]⟩

abbrev nBuf : Space → Nat
  | .hbm => 12
  | .vmem => 15
  | .smem => 0
  | _ => 0

abbrev bufTy : (tb : Table) → Fin (tcTables nBuf tb) → BufTy
  | .hbm, ⟨0, _⟩ => ⟨S32x1024x512, .f32⟩
  | .hbm, ⟨1, _⟩ => ⟨S32x1024x1024, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S32x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x1024, .f32⟩
  | .local _ .vmem, ⟨3, _⟩ => ⟨S1x1024x1024, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x512, .f32⟩
  | .local _ .vmem, ⟨13, _⟩ => ⟨S1024x512, .f32⟩
  | .local _ .vmem, ⟨14, _⟩ => ⟨S1024x1024, .bf16⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S512_S1x512 : S512.ShapeCasts S1x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x512.size a ≤ S32x1024x512.size a
  hwx0_8 : ∀ i : grid0.Coords, EltTy.bits .f32 = 32 ∨ (Rect.block (s := S32x1024x512) S1x1024x512.size (cc0_transform_8 i) (hinb0_8 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S32x1024x1024 : Shape := ⟨3, ![32, 1024, 1024]⟩
abbrev S512x512 : Shape := ⟨2, ![512, 512]⟩
abbrev S512 : Shape := ⟨1, ![512]⟩
abbrev S1x1x512 : Shape := ⟨3, ![1, 1, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x1024x1024, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S32x1024x512, .f32⟩
  | .hbm, ⟨9, _⟩ => ⟨S32x1024x512, .f32⟩
  | .hbm, ⟨10, _⟩ => ⟨S1x1x512, .f32⟩
  | .hbm, ⟨11, _⟩ => ⟨S32x1024x512, .f32⟩
  | .hbm, ⟨12, _⟩ => ⟨S32x1024x512, .f32⟩
  | .hbm, ⟨13, _⟩ => ⟨S_, .f32⟩
  | .hbm, ⟨14, _⟩ => ⟨S32x1024x512, .f32⟩
  | .hbm, ⟨15, _⟩ => ⟨S32x1024x512, .f32⟩
  | .hbm, ⟨16, _⟩ => ⟨S32x1024x512, .f32⟩
  | .hbm, ⟨17, _⟩ => ⟨S32x1024x512, .f32⟩
  | .hbm, ⟨18, _⟩ => ⟨S1x1x512, .f32⟩
  | .hbm, ⟨19, _⟩ => ⟨S32x1024x512, .f32⟩
  | .hbm, ⟨20, _⟩ => ⟨S32x1024x512, .f32⟩
  | .hbm, ⟨21, _⟩ => ⟨S_, .f32⟩
  | .hbm, ⟨22, _⟩ => ⟨S32x1024x512, .f32⟩
  | .hbm, ⟨23, _⟩ => ⟨S32x1024x512, .f32⟩
  | .hbm, ⟨24, _⟩ => ⟨S32x1024x512, .f32⟩
  | .hbm, ⟨25, _⟩ => ⟨S32x1024x512, .f32⟩
  | .hbm, ⟨26, _⟩ => ⟨S1x1x512, .f32⟩
  | .hbm, ⟨27, _⟩ => ⟨S32x1024x512, .f32⟩
  | .hbm, ⟨28, _⟩ => ⟨S32x1024x512, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x1024x512 : S_.BroadcastsInDim S32x1024x512 (![] : Fin 0 → Fin S32x1024x512.rank)
  dot_S32x1024x512_S512x512_S32x1024x512_2_0_01_1_n_n_wf : DotDims.WF S32x1024x512 S512x512 S32x1024x512 [2] [0] [0, 1] [1] [] []
  dot_S32x1024x1024_S32x1024x512_S32x1024x512_2_1_1_2_0_0_wf : DotDims.WF S32x1024x1024 S32x1024x512 S32x1024x512 [2] [1] [1] [2] [0] [0]

variable [Facts₀]

def dot_S32x1024x512_S512x512_S32x1024x512_2_0_01_1_n_n : DotDims S32x1024x512 S512x512 S32x1024x512 where
  lhsContracting := [2]
  rhsContracting := [0]
  lhsNonContracting := [0, 1]
  rhsNonContracting := [1]
  lhsBatch := []
  rhsBatch := []
  wf := dot_S32x1024x512_S512x512_S32x1024x512_2_0_01_1_n_n_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf

class Facts : Prop extends Facts₀ where

variable [Facts]
-- ==== Proof.LibReadBack.lean ====
/-
  A buffer stored whole several times and then loaded whole reads back the LATEST store's value.

  The run of a kernel body records, for a buffer it has written, the list of pieces stored so far, last first; a later
  load of the buffer is read off that list. When the latest store went through the rectangle that is the whole
  buffer (zero offsets, the buffer's own extents), that one piece already holds every index, so the load through the same
  rectangle returns its value whatever the earlier stores were. (The library states this for a list of exactly one
  piece; a scratch buffer that is overwritten once per layer of a fused kernel carries one piece per layer.)
-/
import Idealize.ShloMosaic.Lib.Pipeline.Value

noncomputable section

namespace Idealize.ShloMosaic.View

variable {Val : EltTy → Type} {S : Shape} {e : EltTy}

/-- A whole-buffer load after a whole-buffer store `w`, the latest of the stores `⟨·, w⟩ :: L`, reads `w`. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.Body.lean ====
/-
  What one grid point's run of the fused three-layer kernel leaves in its output block, as ONE term of the eight
  input blocks.

  The body keeps three scratch buffers: the adjacency block cast to bf16 (stored once, read three times), the
  "support" x·W of the current layer, and the hidden activations of the current layer. Every scratch is stored whole
  before it is loaded whole, so each load reads back the value of the latest store into that buffer, and the single
  store into the output block ends up holding

      out = (A · (h₂ · W₃)) + b₃,   h₂ = max((A · (h₁ · W₂)) + b₂, 0),   h₁ = max((A · (x · W₁)) + b₁, 0)

  written over the body's own pure terms (one per store). Nothing is carried from one grid point to the next.
-/
import proofs.«166397_j12807592477476_1_alg».proof.Proof.Gen.KernelIdeal.Frame
import proofs.«166397_j12807592477476_1_alg».proof.Proof.LibReadBack
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- The output block of one grid point from its input blocks: the feature block `x0`, the adjacency block `x1`, and
    the three weight matrices and bias rows `x2 … x7`. `adjacency` is the bf16 copy of the adjacency block every
    layer multiplies by; `hidden1`, `hidden2` are the activations after the first and second layer. -/
def block (x0 : Vec F S1x1024x512 .f32) (x1 : Vec F S1x1024x1024 .f32) (x2 : Vec F S512x512 .f32) (x3 : Vec F S1x512 .f32) (x4 : Vec F S512x512 .f32) (x5 : Vec F S1x512 .f32) (x6 : Vec F S512x512 .f32) (x7 : Vec F S1x512 .f32) : FVec F S1x1024x512 .f32 :=
  let adjacency := k0_pay2 x1
  let hidden1 := k0_pay4 adjacency (k0_pay3 x0 x2) x3
  let hidden2 := k0_pay7 adjacency (k0_pay6 (k0_pay5 hidden1) x4) x5
  k0_pay1 (k0_pay9 adjacency (k0_pay8 hidden2 x6)) x7

/-- The run's one covering store into the output block holds `block` of the input blocks: each scratch load reads the
    latest whole store into its buffer, each input load reads the input block. -/
theorem out_eq_block (c : Dev nD) (i : grid0.Coords) (arg1 : Memref sig .tc .vmem S1x1024x512 .f32) (harg1 : arg1.IsWhole) (arg2 : Memref sig .tc .vmem S1x1024x1024 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x1024 .bf16) (harg12 : arg12.IsWhole) (x0 : Vec F S1x1024x512 .f32) (x1 : Vec F S1x1024x1024 .f32) (x2 : Vec F S512x512 .f32) (x3 : Vec F S1x512 .f32) (x4 : Vec F S512x512 .f32) (x5 : Vec F S1x512 .f32) (x6 : Vec F S512x512 .f32) (x7 : Vec F S1x512 .f32) :
    out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 = block x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  rw [View.canon_unit_zero zero3]
  simp only [View.readAt_eq_ld, harg1.read_unread, harg2.read_unread, harg3.read_unread, harg4.read_unread,
    harg5.read_unread, harg6.read_unread, harg7.read_unread, harg8.read_unread,
    View.ld_unit_zero (S := S1x1024x512) zero3, View.ld_unit_zero (S := S1x1024x1024) zero3,
    View.ld_unit_zero (S := S512x512) zero2, View.ld_unit_zero (S := S1x512) zero2,
    View.readCov_cons_unit_zero (S := S1024x512) _ zero2, View.readCov_cons_unit_zero (S := S1024x1024) _ zero2]
  rfl

end Cert.KernelIdeal.Body

end
-- ==== Proof.GcnSpec.lean ====
/-
  The three-layer graph convolution as one function of the argument arrays, entry by entry, on the extended reals.

  For a batch of 32 graphs with 1024 nodes each, node features x[b, n, f] (512 features), adjacency A[b, n, m],
  and per layer a 512 × 512 weight matrix W and a bias vector β, one layer is

      layer(X)[b, n, h] = (∑ m < 1024, A[b, n, m] · (∑ f < 512, X[b, m, f] · W[f, h])) + β[h]

  (first the "support" X·W of every node, then its aggregation over the node's neighbours, then the bias), and the
  network is  layer₃ ∘ relu ∘ layer₂ ∘ relu ∘ layer₁  with relu(v) = max(v, 0) entry by entry. Both programs of the
  certificate compute exactly this nesting of sums, in this order, so no law of arithmetic beyond the identification of
  the index sets is needed to join them, and no entry has to be finite.
-/
import Idealize.ShloMosaic.PureOps.Ideal
import Idealize.ShloMosaic.Lib.ValueIdx

noncomputable section

open scoped BigOperators

namespace Cert.Gcn

open Idealize.ShloMosaic Idealize.ShloMosaic.ValueIdx

/-- Node features and every layer's output: [graph, node, feature]. -/
abbrev Feat : Shape := ⟨3, ![32, 1024, 512]⟩
/-- Adjacency: [graph, node, neighbour]. -/
abbrev Adjs : Shape := ⟨3, ![32, 1024, 1024]⟩
/-- A layer's weights: [feature in, feature out]. -/
abbrev Wts : Shape := ⟨2, ![512, 512]⟩
/-- A layer's bias: [feature out]. -/
abbrev Bias : Shape := ⟨1, ![512]⟩

/-- One layer: aggregate over a node's neighbours the support X·W of each neighbour, then add the bias. -/
def layer (X : Feat.Idx → EReal) (A : Adjs.Idx → EReal) (W : Wts.Idx → EReal) (β : Bias.Idx → EReal) : Feat.Idx → EReal :=
  fun i => (∑ k : Fin 1024, A (ix3 (i 0) (i 1) k) * ∑ f : Fin 512, X (ix3 (i 0) k f) * W (ix2 f (i 2))) + β (ix1 (i 2))

/-- The rectifier, entry by entry. -/
def relu (X : Feat.Idx → EReal) : Feat.Idx → EReal := fun i => max (X i) 0

/-- The network: three layers over one adjacency, rectified between. -/
def gcn (x : Feat.Idx → EReal) (A : Adjs.Idx → EReal) (W₁ : Wts.Idx → EReal) (β₁ : Bias.Idx → EReal)
    (W₂ : Wts.Idx → EReal) (β₂ : Bias.Idx → EReal) (W₃ : Wts.Idx → EReal) (β₃ : Bias.Idx → EReal) : Feat.Idx → EReal :=
  layer (relu (layer (relu (layer x A W₁ β₁)) A W₂ β₂)) A W₃ β₃

/-- A layer at graph `b`, node `n`, feature `h`. -/
theorem layer_at (X : Feat.Idx → EReal) (A : Adjs.Idx → EReal) (W : Wts.Idx → EReal) (β : Bias.Idx → EReal)
    (b : Fin 32) (n : Fin 1024) (h : Fin 512) :
    layer X A W β (ix3 b n h) = (∑ k : Fin 1024, A (ix3 b n k) * ∑ f : Fin 512, X (ix3 b k f) * W (ix2 f h)) + β (ix1 h) := rfl

/-- The rectifier at graph `b`, node `n`, feature `h`. -/
theorem relu_at (X : Feat.Idx → EReal) (b : Fin 32) (n : Fin 1024) (h : Fin 512) :
    relu X (ix3 b n h) = max (X (ix3 b n h)) 0 := rfl

/-- One layer computed on a single graph's slices is the layer at that graph: if `Xb`, `Ab` are graph `b`'s feature and
    adjacency slices, `Wv` the weights and `βr` the bias laid out as one row, then the slice-level nest of sums is the
    layer's entry. -/
theorem layer_of_slices (X : Feat.Idx → EReal) (A : Adjs.Idx → EReal) (W : Wts.Idx → EReal) (β : Bias.Idx → EReal)
    (b : Fin 32) (Xb : (⟨2, ![1024, 512]⟩ : Shape).Idx → EReal) (Ab : (⟨2, ![1024, 1024]⟩ : Shape).Idx → EReal)
    (Wv : (⟨2, ![512, 512]⟩ : Shape).Idx → EReal) (βr : (⟨2, ![1, 512]⟩ : Shape).Idx → EReal)
    (hX : ∀ p q, Xb (ix2 p q) = X (ix3 b p q)) (hA : ∀ p q, Ab (ix2 p q) = A (ix3 b p q))
    (hW : ∀ f h, Wv (ix2 f h) = W (ix2 f h)) (hβ : ∀ h, βr (ix2 (0 : Fin 1) h) = β (ix1 h)) (n : Fin 1024) (h : Fin 512) :
    (∑ k : Fin 1024, Ab (ix2 n k) * ∑ f : Fin 512, Xb (ix2 k f) * Wv (ix2 f h)) + βr (ix2 (0 : Fin 1) h)
      = layer X A W β (ix3 b n h) := by
  rw [layer_at]
  simp only [hX, hA, hW, hβ]

end Cert.Gcn

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.BlockValue.lean ====
/-
  One grid point's output block, read at an entry at the ideal values, is the network's entry at that point's graph.

  At the ideal values a change of float format is the identity, and each of the body's six matrix products into a zero
  accumulator is the plain sum over the shared axis. So the body's stored terms read, at row n and column h:

      support   x·W            ↦  ∑ f < 512, x(n, f) · W(f, h)
      aggregate A·s + β, rectified  ↦  max((∑ k < 1024, A(n, k) · s(k, h)) + β(0, h), 0)

  and the last layer the same without the rectifier. With the point's feature and adjacency blocks the slices of the
  whole arrays at graph b, these are, layer by layer, the specification's `layer` and `relu` at (b, n, h).
-/
import proofs.«166397_j12807592477476_1_alg».proof.Proof.Body
import proofs.«166397_j12807592477476_1_alg».proof.Proof.GcnSpec
import proofs.«166397_j12807592477476_1_alg».proof.Proof.LibDotRowsCols
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.BlockValue

open Cert.KernelIdeal Cert.KernelIdeal.Gen Cert.Lib.DotRowsCols

/-- The features-by-weights product is a rows-by-columns product. -/
theorem supportDot : RowsCols dot_S1024x512_S512x512_S1024x512_1_0_0_1_n_n := ⟨rfl, rfl, rfl, rfl, rfl, rfl⟩
/-- The adjacency-by-support product is a rows-by-columns product. -/
theorem aggregateDot : RowsCols dot_S1024x1024_S1024x512_S1024x512_1_0_0_1_n_n := ⟨rfl, rfl, rfl, rfl, rfl, rfl⟩

/-- The bf16 copy of the adjacency block at (p, q) is the block's entry (0, p, q). -/
theorem adjacency_at (x1 : Vec Ideal S1x1024x1024 .f32) (p q : Fin 1024) :
    k0_pay2 (F := Ideal) x1 (ix2 p q) = x1 (ix3 (0 : Fin 1) p q) := by
  unfold k0_pay2
  rw [shapeCast_self]
  exact shapeCast_1ab_ab_apply x1 _ p q

/-- The first layer's support at (n, h): the feature block's row n against the weights' column h. -/
theorem support1_at (x0 : Vec Ideal S1x1024x512 .f32) (x2 : Vec Ideal S512x512 .f32) (n : Fin 1024) (h : Fin 512) :
    k0_pay3 (F := Ideal) x0 x2 (ix2 n h) = ∑ f : Fin 512, x0 (ix3 (0 : Fin 1) n f) * x2 (ix2 f h) := by
  unfold k0_pay3
  rw [shapeCast_self]
  refine (supportDot.matmul_zero_apply none _ _ (ix2 n h)).trans ?_
  refine Finset.sum_congr rfl fun f _ => ?_
  exact congrArg (· * x2 (ix2 f h)) (shapeCast_1ab_ab_apply x0 _ n f)

/-- An aggregated, biased and rectified layer at (n, h). -/
theorem hidden1_at (ab : Vec Ideal S1024x1024 .bf16) (s : Vec Ideal S1024x512 .f32) (x3 : Vec Ideal S1x512 .f32)
    (n : Fin 1024) (h : Fin 512) :
    k0_pay4 (F := Ideal) ab s x3 (ix2 n h)
      = max ((∑ k : Fin 1024, ab (ix2 n k) * s (ix2 k h)) + x3 (ix2 (0 : Fin 1) h)) 0 := by
  unfold k0_pay4
  rw [shapeCast_self]
  show max (_ + _) (Ideal.ofBits .f32 0x00000000#32) = _
  rw [Ideal.ofBits_zero_f32]
  refine congrArg (max · 0) (congrArg₂ (· + ·) (aggregateDot.matmul_zero_apply none _ _ (ix2 n h)) ?_)
  rw [shapeCast_self]
  exact broadcastTo_1b_ab_apply x3 _ n h

/-- The second layer's support at (n, h). -/
theorem support2_at (hb : FVec Ideal S1024x512 .bf16) (x4 : Vec Ideal S512x512 .f32) (n : Fin 1024) (h : Fin 512) :
    k0_pay6 (F := Ideal) hb x4 (ix2 n h) = ∑ f : Fin 512, hb (ix2 n f) * x4 (ix2 f h) := by
  unfold k0_pay6
  rw [shapeCast_self]
  exact supportDot.matmul_zero_apply none _ _ (ix2 n h)

/-- The second aggregated, biased and rectified layer at (n, h). -/
theorem hidden2_at (ab : Vec Ideal S1024x1024 .bf16) (s : Vec Ideal S1024x512 .f32) (x5 : Vec Ideal S1x512 .f32)
    (n : Fin 1024) (h : Fin 512) :
    k0_pay7 (F := Ideal) ab s x5 (ix2 n h)
      = max ((∑ k : Fin 1024, ab (ix2 n k) * s (ix2 k h)) + x5 (ix2 (0 : Fin 1) h)) 0 := by
  unfold k0_pay7
  rw [shapeCast_self]
  show max (_ + _) (Ideal.ofBits .f32 0x00000000#32) = _
  rw [Ideal.ofBits_zero_f32]
  refine congrArg (max · 0) (congrArg₂ (· + ·) (aggregateDot.matmul_zero_apply none _ _ (ix2 n h)) ?_)
  rw [shapeCast_self]
  exact broadcastTo_1b_ab_apply x5 _ n h

/-- The third layer's support at (n, h). -/
theorem support3_at (hv : Vec Ideal S1024x512 .f32) (x6 : Vec Ideal S512x512 .f32) (n : Fin 1024) (h : Fin 512) :
    k0_pay8 (F := Ideal) hv x6 (ix2 n h) = ∑ f : Fin 512, hv (ix2 n f) * x6 (ix2 f h) := by
  unfold k0_pay8
  rw [shapeCast_self]
  exact supportDot.matmul_zero_apply none _ _ (ix2 n h)

/-- The third layer's aggregation at (n, h). -/
theorem aggregate3_at (ab : Vec Ideal S1024x1024 .bf16) (s : Vec Ideal S1024x512 .f32) (n : Fin 1024) (h : Fin 512) :
    k0_pay9 (F := Ideal) ab s (ix2 n h) = ∑ k : Fin 1024, ab (ix2 n k) * s (ix2 k h) := by
  unfold k0_pay9
  exact aggregateDot.matmul_zero_apply none _ _ (ix2 n h)

/-- The stored output block at (0, n, h): the aggregation plus the bias row. -/
theorem output_at (o : FVec Ideal S1024x512 .f32) (x7 : Vec Ideal S1x512 .f32) (n : Fin 1024) (h : Fin 512) :
    k0_pay1 (F := Ideal) o x7 (ix3 (0 : Fin 1) n h) = o (ix2 n h) + x7 (ix2 (0 : Fin 1) h) := by
  unfold k0_pay1
  refine (shapeCast_ab_1ab_apply _ _ (0 : Fin 1) n h).trans ?_
  refine congrArg (o (ix2 n h) + ·) ?_
  rw [shapeCast_self]
  exact broadcastTo_1b_ab_apply x7 _ n h

open Cert.Gcn in
/-- THE BLOCK IS THE NETWORK AT ITS GRAPH. If the point's feature and adjacency blocks are the slices of `X` and `A` at
    graph `b`, its weight blocks the weight matrices and its bias rows the bias vectors, the stored output block at
    (0, n, h) is the network's entry (b, n, h). -/
theorem block_at (b : Fin 32) (X : Feat.Idx → EReal) (A : Adjs.Idx → EReal)
    (W₁ : Wts.Idx → EReal) (β₁ : Bias.Idx → EReal) (W₂ : Wts.Idx → EReal) (β₂ : Bias.Idx → EReal)
    (W₃ : Wts.Idx → EReal) (β₃ : Bias.Idx → EReal)
    (x0 : Vec Ideal S1x1024x512 .f32) (x1 : Vec Ideal S1x1024x1024 .f32) (x2 : Vec Ideal S512x512 .f32) (x3 : Vec Ideal S1x512 .f32)
    (x4 : Vec Ideal S512x512 .f32) (x5 : Vec Ideal S1x512 .f32) (x6 : Vec Ideal S512x512 .f32) (x7 : Vec Ideal S1x512 .f32)
    (hx : ∀ p q, x0 (ix3 (0 : Fin 1) p q) = X (ix3 b p q)) (ha : ∀ p q, x1 (ix3 (0 : Fin 1) p q) = A (ix3 b p q))
    (hw1 : ∀ f h, x2 (ix2 f h) = W₁ (ix2 f h)) (hb1 : ∀ h, x3 (ix2 (0 : Fin 1) h) = β₁ (ix1 h))
    (hw2 : ∀ f h, x4 (ix2 f h) = W₂ (ix2 f h)) (hb2 : ∀ h, x5 (ix2 (0 : Fin 1) h) = β₂ (ix1 h))
    (hw3 : ∀ f h, x6 (ix2 f h) = W₃ (ix2 f h)) (hb3 : ∀ h, x7 (ix2 (0 : Fin 1) h) = β₃ (ix1 h))
    (n : Fin 1024) (h : Fin 512) :
    Body.block (F := Ideal) x0 x1 x2 x3 x4 x5 x6 x7 (ix3 (0 : Fin 1) n h) = gcn X A W₁ β₁ W₂ β₂ W₃ β₃ (ix3 b n h) := by
  -- the adjacency copy is graph b's adjacency slice
  have hab : ∀ p q, k0_pay2 (F := Ideal) x1 (ix2 p q) = A (ix3 b p q) := fun p q => (adjacency_at x1 p q).trans (ha p q)
  -- first layer, rectified
  have h1 : ∀ p q, k0_pay4 (F := Ideal) (k0_pay2 x1) (k0_pay3 x0 x2) x3 (ix2 p q) = relu (layer X A W₁ β₁) (ix3 b p q) := by
    intro p q
    rw [hidden1_at, relu_at]
    refine congrArg (max · 0) ?_
    simp only [support1_at]
    exact layer_of_slices X A W₁ β₁ b (fun j => x0 (ix3 (0 : Fin 1) (j 0) (j 1))) (k0_pay2 (F := Ideal) x1) x2 x3
      hx hab hw1 hb1 p q
  -- second layer, rectified (the cast of the first layer's activations to bf16 changes nothing)
  have h2 : ∀ p q, k0_pay7 (F := Ideal) (k0_pay2 x1)
      (k0_pay6 (k0_pay5 (k0_pay4 (k0_pay2 x1) (k0_pay3 x0 x2) x3)) x4) x5 (ix2 p q)
        = relu (layer (relu (layer X A W₁ β₁)) A W₂ β₂) (ix3 b p q) := by
    intro p q
    rw [hidden2_at, relu_at]
    refine congrArg (max · 0) ?_
    simp only [support2_at]
    exact layer_of_slices (relu (layer X A W₁ β₁)) A W₂ β₂ b
      (k0_pay5 (F := Ideal) (k0_pay4 (k0_pay2 x1) (k0_pay3 x0 x2) x3)) (k0_pay2 (F := Ideal) x1) x4 x5
      h1 hab hw2 hb2 p q
  -- third layer
  show k0_pay1 (F := Ideal) (k0_pay9 (k0_pay2 x1) (k0_pay8 _ x6)) x7 (ix3 (0 : Fin 1) n h) = _
  rw [output_at, aggregate3_at]
  simp only [support3_at]
  exact layer_of_slices (relu (layer (relu (layer X A W₁ β₁)) A W₂ β₂)) A W₃ β₃ b _ (k0_pay2 (F := Ideal) x1) x6 x7
    h2 hab hw3 hb3 n h

end Cert.KernelIdeal.BlockValue

end
-- ==== Proof.KernelValue.lean ====
/-
  The kernel's result array, after the run at the ideal values, is the network of the launched argument arrays.

  The grid has one point per graph: point t stages graph t's feature block [1, 1024, 512] and adjacency block
  [1, 1024, 1024], the three whole weight matrices and the three bias vectors reshaped to one row [1, 512], and
  writes back block t of the result. So an entry (u, n, h) of a feature, adjacency or result block at point t sits at
  (t, n, h) of its array, a weight block is its matrix, and a bias row at (0, h) is the bias vector's entry h. The
  output block the body leaves is therefore the network at graph t (the block-level reading), which is block t of ONE
  whole-array function; the 32 blocks tile the result array, the block holding (b, n, h) being point b's.
-/
import proofs.«166397_j12807592477476_1_alg».proof.Proof.Gen.KernelIdeal.Value
import proofs.«166397_j12807592477476_1_alg».proof.Proof.Body
import proofs.«166397_j12807592477476_1_alg».proof.Proof.BlockValue
import proofs.«166397_j12807592477476_1_alg».proof.Proof.GcnSpec
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Value Cert.Gcn

variable (m : (ℓ : Loc nD τ sig) → Buf (Elt Ideal) ℓ) (ρ : Dev nD → PrngReg)

/-- The network of the argument arrays as launched on core `c`. -/
abbrev net (c : Dev nD) : Feat.Idx → EReal :=
  gcn (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- Where each window's block sits at point `t`: the per-graph windows at block index (t, 0, 0), the weight and bias
    windows at (0, 0) (decided over the 32 points). -/
theorem block_indices : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_8.index t (0 : Fin 3) = t.val ∧ win0_8.index t (1 : Fin 3) = 0 ∧ win0_8.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Point `t` as a graph number. -/
abbrev graph (t : Fin cfg0.N) : Fin 32 := ⟨t.val, lt_of_lt_of_eq t.isLt N_0⟩

/-- The first bias window's array is the bias vector reshaped to one row by the host: its entry (0, h) is the vector's
    entry h. -/
theorem bias1_row (c : Dev nD) (h : Fin 512) :
    (V m c main_v0 : S1x512.Idx → EReal) (ix2 (0 : Fin 1) h) = m ((c : Thread nD τ).loc main_arg3) (ix1 h) := by
  have e : (V m c main_v0 : S1x512.Idx → EReal)
      = shapeCast S1x512 (m ((c : Thread nD τ).loc main_arg3)) Facts₀.shapeCasts_S512_S1x512 := by
    dsimp only [V, hostOps0]; after_results; rfl
  rw [e]
  exact shapeCast_a_1a_apply _ _ (0 : Fin 1) h

/-- The second bias window's array is the bias vector reshaped to one row by the host: its entry (0, h) is the vector's
    entry h. -/
theorem bias2_row (c : Dev nD) (h : Fin 512) :
    (V m c main_v1 : S1x512.Idx → EReal) (ix2 (0 : Fin 1) h) = m ((c : Thread nD τ).loc main_arg5) (ix1 h) := by
  have e : (V m c main_v1 : S1x512.Idx → EReal)
      = shapeCast S1x512 (m ((c : Thread nD τ).loc main_arg5)) Facts₀.shapeCasts_S512_S1x512 := by
    dsimp only [V, hostOps0]; after_results; rfl
  rw [e]
  exact shapeCast_a_1a_apply _ _ (0 : Fin 1) h

/-- The third bias window's array is the bias vector reshaped to one row by the host: its entry (0, h) is the vector's
    entry h. -/
theorem bias3_row (c : Dev nD) (h : Fin 512) :
    (V m c main_v2 : S1x512.Idx → EReal) (ix2 (0 : Fin 1) h) = m ((c : Thread nD τ).loc main_arg7) (ix1 h) := by
  have e : (V m c main_v2 : S1x512.Idx → EReal)
      = shapeCast S1x512 (m ((c : Thread nD τ).loc main_arg7)) Facts₀.shapeCasts_S512_S1x512 := by
    dsimp only [V, hostOps0]; after_results; rfl
  rw [e]
  exact shapeCast_a_1a_apply _ _ (0 : Fin 1) h

/-- Entry (0, p, q) of point `t`'s feature block is entry (t, p, q) of the feature array. -/
theorem feature_block (c : Dev nD) (t : Fin cfg0.N) (p : Fin 1024) (q : Fin 512) :
    (iblk m c 0 t : Vec Ideal S1x1024x512 .f32) (ix3 (0 : Fin 1) p q) = m ((c : Thread nD τ).loc main_arg0) (ix3 (graph t) p q) := by
  have hi := block_indices t
  show V m c main_arg0 (((cfg0.win 0).blk t).view.emb (ix3 (0 : Fin 1) p q)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 512 + 1 * q.val = q.val; omega

/-- Entry (0, p, q) of point `t`'s adjacency block is entry (t, p, q) of the adjacency array. -/
theorem adjacency_block (c : Dev nD) (t : Fin cfg0.N) (p : Fin 1024) (q : Fin 1024) :
    (iblk m c 1 t : Vec Ideal S1x1024x1024 .f32) (ix3 (0 : Fin 1) p q) = m ((c : Thread nD τ).loc main_arg1) (ix3 (graph t) p q) := by
  have hi := block_indices t
  show V m c main_arg1 (((cfg0.win 1).blk t).view.emb (ix3 (0 : Fin 1) p q)) = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * p.val = p.val; omega
  | ⟨2, _⟩ => show win0_1.index t (2 : Fin 3) * 1024 + 1 * q.val = q.val; omega

/-- The first weight window's one block is the weight matrix. -/
theorem weight1_block (c : Dev nD) (t : Fin cfg0.N) (f h : Fin 512) :
    (iblk m c 2 t : Vec Ideal S512x512 .f32) (ix2 f h) = m ((c : Thread nD τ).loc main_arg2) (ix2 f h) := by
  have hi := block_indices t
  show V m c main_arg2 (((cfg0.win 2).blk t).view.emb (ix2 f h)) = _
  rw [V_main_arg2]
  refine congrArg _ (funext fun a => Fin.ext ?_)
  match a with
  | ⟨0, _⟩ => show win0_2.index t (0 : Fin 2) * 512 + 1 * f.val = f.val; omega
  | ⟨1, _⟩ => show win0_2.index t (1 : Fin 2) * 512 + 1 * h.val = h.val; omega

/-- The first bias window's one block, at (0, h), is the bias vector's entry h. -/
theorem bias1_block (c : Dev nD) (t : Fin cfg0.N) (h : Fin 512) :
    (iblk m c 3 t : Vec Ideal S1x512 .f32) (ix2 (0 : Fin 1) h) = m ((c : Thread nD τ).loc main_arg3) (ix1 h) := by
  have hi := block_indices t
  refine Eq.trans ?_ (bias1_row m c h)
  show V m c main_v0 (((cfg0.win 3).blk t).view.emb (ix2 (0 : Fin 1) h)) = _
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * h.val = h.val; omega

/-- The second weight window's one block is the weight matrix. -/
theorem weight2_block (c : Dev nD) (t : Fin cfg0.N) (f h : Fin 512) :
    (iblk m c 4 t : Vec Ideal S512x512 .f32) (ix2 f h) = m ((c : Thread nD τ).loc main_arg4) (ix2 f h) := by
  have hi := block_indices t
  show V m c main_arg4 (((cfg0.win 4).blk t).view.emb (ix2 f h)) = _
  rw [V_main_arg4]
  refine congrArg _ (funext fun a => Fin.ext ?_)
  match a with
  | ⟨0, _⟩ => show win0_4.index t (0 : Fin 2) * 512 + 1 * f.val = f.val; omega
  | ⟨1, _⟩ => show win0_4.index t (1 : Fin 2) * 512 + 1 * h.val = h.val; omega

/-- The second bias window's one block, at (0, h), is the bias vector's entry h. -/
theorem bias2_block (c : Dev nD) (t : Fin cfg0.N) (h : Fin 512) :
    (iblk m c 5 t : Vec Ideal S1x512 .f32) (ix2 (0 : Fin 1) h) = m ((c : Thread nD τ).loc main_arg5) (ix1 h) := by
  have hi := block_indices t
  refine Eq.trans ?_ (bias2_row m c h)
  show V m c main_v1 (((cfg0.win 5).blk t).view.emb (ix2 (0 : Fin 1) h)) = _
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * h.val = h.val; omega

/-- The third weight window's one block is the weight matrix. -/
theorem weight3_block (c : Dev nD) (t : Fin cfg0.N) (f h : Fin 512) :
    (iblk m c 6 t : Vec Ideal S512x512 .f32) (ix2 f h) = m ((c : Thread nD τ).loc main_arg6) (ix2 f h) := by
  have hi := block_indices t
  show V m c main_arg6 (((cfg0.win 6).blk t).view.emb (ix2 f h)) = _
  rw [V_main_arg6]
  refine congrArg _ (funext fun a => Fin.ext ?_)
  match a with
  | ⟨0, _⟩ => show win0_6.index t (0 : Fin 2) * 512 + 1 * f.val = f.val; omega
  | ⟨1, _⟩ => show win0_6.index t (1 : Fin 2) * 512 + 1 * h.val = h.val; omega

/-- The third bias window's one block, at (0, h), is the bias vector's entry h. -/
theorem bias3_block (c : Dev nD) (t : Fin cfg0.N) (h : Fin 512) :
    (iblk m c 7 t : Vec Ideal S1x512 .f32) (ix2 (0 : Fin 1) h) = m ((c : Thread nD τ).loc main_arg7) (ix1 h) := by
  have hi := block_indices t
  refine Eq.trans ?_ (bias3_row m c h)
  show V m c main_v2 (((cfg0.win 7).blk t).view.emb (ix2 (0 : Fin 1) h)) = _
  refine congrArg _ (funext fun a => Fin.ext ?_)
  match a with
  | ⟨0, _⟩ => show win0_7.index t (0 : Fin 2) * 1 + 1 * 0 = 0; omega
  | ⟨1, _⟩ => show win0_7.index t (1 : Fin 2) * 512 + 1 * h.val = h.val; omega

/-- WHAT POINT `t` WRITES BACK is block `t` of the network of the argument arrays. -/
theorem flushed_eq (c : Dev nD) (t : Fin cfg0.N) :
    (dats m 0 c).flushed 8 t = ((cfg0.win 8).blk t).view.read (Elt Ideal) (net m c) := by
  refine (flushed8_A m c t).trans ?_
  refine (congrArg ((cfg0.win 8).cut (grid0.coords t))
    (Body.out_eq_block (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t))).trans ?_
  funext y
  obtain ⟨u, n, h, rfl⟩ : ∃ (u : Fin 1) (n : Fin 1024) (h : Fin 512), y = ix3 u n h := ⟨y 0, y 1, y 2, eq_ix3 y⟩
  obtain rfl : u = 0 := Subsingleton.elim _ _
  have hi := block_indices t
  -- the block's entry (0, n, h) sits at (t, n, h) of the result array
  have eo : ((cfg0.win 8).blk t).view.emb (ix3 (0 : Fin 1) n h) = ix3 (graph t) n h := by
    refine funext fun a => Fin.ext ?_
    match a with
    | ⟨0, _⟩ => show win0_8.index t (0 : Fin 3) * 1 + 1 * 0 = t.val; omega
    | ⟨1, _⟩ => show win0_8.index t (1 : Fin 3) * 1024 + 1 * n.val = n.val; omega
    | ⟨2, _⟩ => show win0_8.index t (2 : Fin 3) * 512 + 1 * h.val = h.val; omega
  show Body.block (F := Ideal) (iblk m c 0 t) (iblk m c 1 t) (iblk m c 2 t) (iblk m c 3 t) (iblk m c 4 t) (iblk m c 5 t) (iblk m c 6 t) (iblk m c 7 t) (ix3 (0 : Fin 1) n h)
    = net m c (((cfg0.win 8).blk t).view.emb (ix3 (0 : Fin 1) n h))
  rw [eo]
  exact BlockValue.block_at (graph t) _ _ _ _ _ _ _ _ (iblk m c 0 t) (iblk m c 1 t) (iblk m c 2 t) (iblk m c 3 t) (iblk m c 4 t) (iblk m c 5 t) (iblk m c 6 t) (iblk m c 7 t)
    (feature_block m c t) (adjacency_block m c t) (weight1_block m c t) (bias1_block m c t)
    (weight2_block m c t) (bias2_block m c t) (weight3_block m c t) (bias3_block m c t) n h

/-- An index of the result array is in point `t`'s block iff each coordinate is in the block's range on its axis. -/
theorem mem_block (t : Fin cfg0.N) (i : S32x1024x512.Idx) :
    i ∈ ((cfg0.win 8).blk t).view.set ↔ ∀ a : Fin 3, win0_8.index t a * S1x1024x512.size a ≤ (i a).val
      ∧ (i a).val < win0_8.index t a * S1x1024x512.size a + S1x1024x512.size a := by
  show i ∈ ((View.whole main_v3).slice (win0_8.rect t)).set ↔ _
  rw [View.set_slice_whole, Rect.mem_set_unit]
  exact Iff.rfl

/-- The 32 blocks tile the result array: entry (b, n, h) is in point b's block. -/
theorem cover (i : S32x1024x512.Idx) :
    ∃ t : Fin cfg0.N, (cfg0.win 8).flush t = true ∧ i ∈ ((cfg0.win 8).blk t).view.set := by
  have h0 : (i 0).val < 32 := (i 0).isLt
  have h1 : (i 1).val < 1024 := (i 1).isLt
  have h2 : (i 2).val < 512 := (i 2).isLt
  refine ⟨⟨(i 0).val, lt_of_lt_of_eq h0 N_0.symm⟩, flush0_8 _, ?_⟩
  have hi := block_indices ⟨(i 0).val, lt_of_lt_of_eq h0 N_0.symm⟩
  rw [mem_block]
  intro a
  match a with
  | ⟨0, _⟩ =>
    show win0_8.index ⟨(i 0).val, _⟩ (0 : Fin 3) * 1 ≤ (i 0).val ∧ (i 0).val < win0_8.index ⟨(i 0).val, _⟩ (0 : Fin 3) * 1 + 1
    have e := hi.2.2.1.1
    dsimp only at e
    omega
  | ⟨1, _⟩ =>
    show win0_8.index ⟨(i 0).val, _⟩ (1 : Fin 3) * 1024 ≤ (i 1).val ∧ (i 1).val < win0_8.index ⟨(i 0).val, _⟩ (1 : Fin 3) * 1024 + 1024
    have e := hi.2.2.1.2.1
    omega
  | ⟨2, _⟩ =>
    show win0_8.index ⟨(i 0).val, _⟩ (2 : Fin 3) * 512 ≤ (i 2).val ∧ (i 2).val < win0_8.index ⟨(i 0).val, _⟩ (2 : Fin 3) * 512 + 512
    have e := hi.2.2.1.2.2
    omega

/-- THE RESULT ARRAY after the run is the network of the argument arrays. -/
theorem final (c : Dev nD) : (dats m 0 c).arrAt 8 cfg0.N = net m c :=
  (dats m 0 c).arrAt_eq_of_cover 8 (net m c) (fun t _ => flushed_eq m c t) cover

/-- The kernel's run at the ideal values: every weakly fair execution ends with the result array at the network of the
    argument arrays, and the argument arrays as launched. -/
theorem run : θ_run defs (onTc (τ := τ) (main (F := Ideal))) ⟨m, fun _ => 0, ρ⟩ fun r => ∀ c : Dev nD,
      r.2.mem ((c : Thread nD τ).loc main_v3) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.KernelValue

end
-- ==== Proof.RefValue.lean ====
/-
  The reference's result, at the ideal values, is the network of the specification.

  The reference computes each layer on whole arrays: a product of every node's features with the weights (contracting
  the feature axis), a product per graph of the adjacency with that support (contracting the neighbour axis), the bias
  broadcast over graphs and nodes, and between layers the entrywise maximum with zero. Read at an entry (b, n, h),
  the first product is ∑ f, X[b, m, f] · W[f, h] at each neighbour m, the second ∑ m, A[b, n, m] · (that sum), and the
  broadcast bias is β[h]: the specification's `layer`. The three layers are one and the same function of
  (features, adjacency, weights, bias) applied to different arguments, so it is read once.
-/
import proofs.«166397_j12807592477476_1_alg».proof.Proof.Gen.ReferenceIdeal.Read
import proofs.«166397_j12807592477476_1_alg».proof.Proof.GcnSpec
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read Cert.Gcn

/-- One layer of the reference — the two products and the broadcast bias, as its first layer states them over any four
    arrays — is the specification's layer. -/
theorem layer_eq (X : Feat.Idx → EReal) (A : Adjs.Idx → EReal) (W : Wts.Idx → EReal) (β : Bias.Idx → EReal) :
    val_main_v4 (F := Ideal) X A W β = layer X A W β := by
  funext i
  obtain ⟨b, n, h, rfl⟩ : ∃ (b : Fin 32) (n : Fin 1024) (h : Fin 512), i = ix3 b n h := ⟨i 0, i 1, i 2, eq_ix3 i⟩
  rw [val_main_v4_apply, val_main_v1_apply, val_main_v3_apply, val_main_v2_apply, layer_at]
  -- the bias entry the two broadcasts read is β[h]
  have eβ : idx_main_v2 (idx_main_v3 (ix3 b n h)) = ix1 h := funext fun a => by match a with | ⟨0, _⟩ => rfl
  rw [eβ]
  refine congrArg (· + β (ix1 h)) (Finset.sum_congr rfl fun k _ => ?_)
  -- the adjacency entry is A[b, n, k]; the support is read at (b, k, h)
  have eA : lidx_main_v1 (ix3 b n h) k = ix3 b n k :=
    funext fun a => by match a with | ⟨0, _⟩ => rfl | ⟨1, _⟩ => rfl | ⟨2, _⟩ => rfl
  have eS : ridx_main_v1 (ix3 b n h) k = ix3 b k h :=
    funext fun a => by match a with | ⟨0, _⟩ => rfl | ⟨1, _⟩ => rfl | ⟨2, _⟩ => rfl
  rw [eA, eS, val_main_v0_apply]
  refine congrArg (A (ix3 b n k) * ·) (Finset.sum_congr rfl fun f _ => ?_)
  -- the support's terms are X[b, k, f] · W[f, h]
  have eX : lidx_main_v0 (ix3 b k h) f = ix3 b k f :=
    funext fun a => by match a with | ⟨0, _⟩ => rfl | ⟨1, _⟩ => rfl | ⟨2, _⟩ => rfl
  have eW : ridx_main_v0 (ix3 b k h) f = ix2 f h :=
    funext fun a => by match a with | ⟨0, _⟩ => rfl | ⟨1, _⟩ => rfl
  rw [eX, eW]

/-- The reference's rectifier — the maximum with the zero constant broadcast to the whole array — is the
    specification's. -/
theorem relu_eq (Y : Feat.Idx → EReal) : maximumf (F := Ideal) (φ := .f32) Y (val_main_call0_v0 (F := Ideal)) = relu Y := by
  funext i
  show max (Y i) (val_main_call0_v0 (F := Ideal) i) = max (Y i) 0
  rw [val_main_call0_v0_apply, val_main_call0_cst_apply]
  exact congrArg (max (Y i)) Ideal.ofBits_zero_f32

/-- The reference's result is its one layer applied three times, rectified between: the later layers' stages are the
    first layer's stage at other arguments. -/
theorem result_unfold (x : Feat.Idx → EReal) (A : Adjs.Idx → EReal) (W₁ : Wts.Idx → EReal) (β₁ : Bias.Idx → EReal)
    (W₂ : Wts.Idx → EReal) (β₂ : Bias.Idx → EReal) (W₃ : Wts.Idx → EReal) (β₃ : Bias.Idx → EReal) :
    val_main_v16 (F := Ideal) x A W₁ β₁ W₂ β₂ W₃ β₃
      = val_main_v4 (F := Ideal)
          (maximumf (F := Ideal) (φ := .f32) (val_main_v4 (F := Ideal)
            (maximumf (F := Ideal) (φ := .f32) (val_main_v4 (F := Ideal) x A W₁ β₁) (val_main_call0_v0 (F := Ideal))) A W₂ β₂)
            (val_main_call0_v0 (F := Ideal))) A W₃ β₃ := rfl

/-- THE REFERENCE IS THE NETWORK. -/
theorem result_eq (x : Feat.Idx → EReal) (A : Adjs.Idx → EReal) (W₁ : Wts.Idx → EReal) (β₁ : Bias.Idx → EReal)
    (W₂ : Wts.Idx → EReal) (β₂ : Bias.Idx → EReal) (W₃ : Wts.Idx → EReal) (β₃ : Bias.Idx → EReal) :
    val_main_v16 (F := Ideal) x A W₁ β₁ W₂ β₂ W₃ β₃ = gcn x A W₁ β₁ W₂ β₂ W₃ β₃ := by
  rw [result_unfold, layer_eq, relu_eq, layer_eq, relu_eq, layer_eq]
  rfl

end Cert.ReferenceIdeal.RefValue

end
-- ==== Proof.lean ====
/-
  A three-layer graph convolution fused into one kernel, against its layer-by-layer reference.

  For 32 graphs of 1024 nodes with 512 features, both programs compute, entry by entry,

      layer(X)[b, n, h] = (∑ m < 1024, A[b, n, m] · (∑ f < 512, X[b, m, f] · W[f, h])) + β[h]

  three times over one adjacency A, with max(·, 0) after the first two layers (the specification, Proof/GcnSpec.lean).
  The kernel runs one grid point per graph: it keeps the graph's adjacency block in a scratch buffer, cast to bf16, and
  for each layer stores the support X·W to a second scratch, reads it back, multiplies by the adjacency, adds the bias
  row, and stores the rectified activations to a third scratch for the next layer; the last layer's value goes to the
  output block. At the ideal values the bf16 casts are the identity and a matrix product into a zero accumulator is
  the plain sum over the shared axis, so the block a point writes back is the network at that point's graph
  (Proof/Body.lean: the stored block as one term of the input blocks; Proof/BlockValue.lean: that term at an entry),
  and the 32 blocks tile the result array (Proof/KernelValue.lean). The reference's whole-array products and
  broadcasts, read at an entry, are the same nest of sums (Proof/RefValue.lean). The two sides add and multiply the
  same extended reals in the same order: no entry needs to be finite, and the precondition is not opened.

  The three frames are the generated runs: the kernel's at both instances, and the reference's run with its result
  dropped. The idealized kernel is the printed kernel's own text read at the ideal values (no rewrite was applied), so
  the idealization claim is trivial.
-/
import proofs.«166397_j12807592477476_1_alg».proof.Defs
import proofs.«166397_j12807592477476_1_alg».proof.Proof.Gen.Kernel
import proofs.«166397_j12807592477476_1_alg».proof.Proof.Gen.Kernel.Skeleton
import proofs.«166397_j12807592477476_1_alg».proof.Proof.Gen.Kernel.Launch
import proofs.«166397_j12807592477476_1_alg».proof.Proof.Gen.Kernel.Points
import proofs.«166397_j12807592477476_1_alg».proof.Proof.Gen.Kernel.Frame
import proofs.«166397_j12807592477476_1_alg».proof.Proof.Gen.KernelIdeal
import proofs.«166397_j12807592477476_1_alg».proof.Proof.Gen.KernelIdeal.Skeleton
import proofs.«166397_j12807592477476_1_alg».proof.Proof.Gen.KernelIdeal.Launch
import proofs.«166397_j12807592477476_1_alg».proof.Proof.Gen.KernelIdeal.Points
import proofs.«166397_j12807592477476_1_alg».proof.Proof.Gen.KernelIdeal.Frame
import proofs.«166397_j12807592477476_1_alg».proof.Proof.Gen.ReferenceIdeal
import proofs.«166397_j12807592477476_1_alg».proof.Proof.Gen.KernelIdeal.Value
import proofs.«166397_j12807592477476_1_alg».proof.Proof.Gen.ReferenceIdeal.Run
import proofs.«166397_j12807592477476_1_alg».proof.Proof.Gen.ReferenceIdeal.Read
import proofs.«166397_j12807592477476_1_alg».proof.Proof.Gen.Pre_finite_inputs
import proofs.«166397_j12807592477476_1_alg».proof.Proof.KernelValue
import proofs.«166397_j12807592477476_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the eight arguments, the kernel's result array and the reference's result both end at
    the network of those arguments. -/
theorem algebraic : Cert.algebraic_KernelIdeal_ReferenceIdeal := by
  intro m ρ m' ρ' _ hagree
  refine ⟨fun c => Cert.KernelIdeal.KernelValue.net m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v16_eq, Cert.ReferenceIdeal.RefValue.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
